-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S16x10x256 : Shape := ⟨3, ![16, 10, 256]⟩
abbrev S16x10 : Shape := ⟨2, ![16, 10]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S16x10x256 : S_.BroadcastsInDim S16x10x256 (![] : Fin 0 → Fin S16x10x256.rank)
  reducesTo_S16x10x256_S_d0_1_2 : S16x10x256.ReducesTo [0, 1, 2] S_
  bcast_S_S16x10 : S_.BroadcastsInDim S16x10 (![] : Fin 0 → Fin S16x10.rank)
  reducesTo_S16x10_S_d0_1 : S16x10.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg1 : IVec S262144 32) (main_v13 : IVec S_ 1) (main_v15 : IVec S262144 1) (main_c_5 : IVec S_ 32) : IVec S_ 1 :=
  let main_v16 : IVec S262144 32 := broadcastInDim S262144 ![] bcast_S_S262144 main_c_5
  let main_v17 : IVec S262144 1 := cmpi .slt main_arg1 main_v16
  let main_v18 : IVec S262144 1 := andi main_v15 main_v17
  let main_c_6 : IVec S_ 1 := constantI S_ 1 1#1
  let main_v19 : IVec S_ 1 := (fun x v => Host.reduce IntOp.andi x v reducesTo_S262144_S_d0 h_S_) main_v18 main_c_6
  let main_v20 : IVec S_ 1 := andi main_v13 main_v19
  main_v20

def fn {F : FTy → Type} [FloatOps F] (main_arg0 : FVec F S262144x256 .f32) (main_arg1 : IVec S262144 32) (main_arg2 : FVec F S16x10x256 .f32) (main_arg3 : FVec F S16x10 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S16x10x256 .f32 := Host.absf main_arg2
  let main_cst_0 : FVec F S_ .f32 := constant S_ .f32 0x7F800000#32
  let main_v5 : FVec F S16x10x256 .f32 := broadcastInDim S16x10x256 ![] bcast_S_S16x10x256 main_cst_0
  let main_v6 : IVec S16x10x256 1 := cmpf .olt main_v4 main_v5
  let main_c_1 : IVec S_ 1 := constantI S_ 1 1#1
  let main_v7 : IVec S_ 1 := (fun x v => Host.reduce IntOp.andi x v reducesTo_S16x10x256_S_d0_1_2 h_S_) main_v6 main_c_1
  let main_v8 : IVec S_ 1 := andi main_v3 main_v7
  let main_v9 : FVec F S16x10 .f32 := Host.absf main_arg3
  let main_cst_2 : FVec F S_ .f32 := constant S_ .f32 0x7F800000#32
  let main_v10 : FVec F S16x10 .f32 := broadcastInDim S16x10 ![] bcast_S_S16x10 main_cst_2
  let main_v11 : IVec S16x10 1 := cmpf .olt main_v9 main_v10
  let main_c_3 : IVec S_ 1 := constantI S_ 1 1#1
  let main_v12 : IVec S_ 1 := (fun x v => Host.reduce IntOp.andi x v reducesTo_S16x10_S_d0_1 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg1 main_v14
  let main_c_5 : IVec S_ 32 := constantI S_ 32 16#32
  fn_part1 (F := F) main_arg1 main_v13 main_v15 main_c_5
-- ==== Kernel.lean ====
abbrev S262144x256 : Shape := ⟨2, ![262144, 256]⟩
abbrev S262144 : Shape := ⟨1, ![262144]⟩
abbrev S16x10x256 : Shape := ⟨3, ![16, 10, 256]⟩
abbrev S16x10 : Shape := ⟨2, ![16, 10]⟩
abbrev S256x16x10 : Shape := ⟨3, ![256, 16, 10]⟩
abbrev S256x160 : Shape := ⟨2, ![256, 160]⟩
abbrev S1x160 : Shape := ⟨2, ![1, 160]⟩
abbrev S262144x10 : Shape := ⟨2, ![262144, 10]⟩
abbrev S2048x256 : Shape := ⟨2, ![2048, 256]⟩
abbrev S2048 : Shape := ⟨1, ![2048]⟩
abbrev S2048x10 : Shape := ⟨2, ![2048, 10]⟩
abbrev S2048x160 : Shape := ⟨2, ![2048, 160]⟩
abbrev S2048x1 : Shape := ⟨2, ![2048, 1]⟩

abbrev nBuf : Space → Nat
  | .hbm => 9
  | .vmem => 8
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S16x10x256, .f32⟩
  | .hbm, ⟨3, _⟩ => ⟨S16x10, .f32⟩
  | .hbm, ⟨4, _⟩ => ⟨S256x16x10, .f32⟩
  | .hbm, ⟨5, _⟩ => ⟨S256x160, .f32⟩
  | .hbm, ⟨6, _⟩ => ⟨S256x160, .bf16⟩
  | .hbm, ⟨7, _⟩ => ⟨S1x160, .f32⟩
  | .hbm, ⟨8, _⟩ => ⟨S262144x10, .f32⟩
  | .local _ .vmem, ⟨0, _⟩ => ⟨S2048x256, .f32⟩
  | .local _ .vmem, ⟨1, _⟩ => ⟨S2048x256, .f32⟩
  | .local _ .vmem, ⟨2, _⟩ => ⟨S2048, .i32⟩
  | .local _ .vmem, ⟨3, _⟩ => ⟨S2048, .i32⟩
  | .local _ .vmem, ⟨4, _⟩ => ⟨S256x160, .bf16⟩
  | .local _ .vmem, ⟨5, _⟩ => ⟨S1x160, .f32⟩
  | .local _ .vmem, ⟨6, _⟩ => ⟨S2048x10, .f32⟩
  | .local _ .vmem, ⟨7, _⟩ => ⟨S2048x10, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16x10x256_S256x16x10_2_0_1 : S16x10x256.Transposes [2, 0, 1] S256x16x10
  shapeCasts_S256x16x10_S256x160 : S256x16x10.ShapeCasts S256x160
  bitsLt_bf16_f32 : FTy.bits .bf16 < FTy.bits .f32
  shapeCasts_S16x10_S1x160 : S16x10.ShapeCasts S1x160
  inb_S2048x256_S2048x256_0_0 : ∀ a, (![0, 0] : Fin 2 → Nat) a + S2048x256.size a ≤ S2048x256.size a
  h_S2048x256 : 0 < S2048x256.numel
  inb_S256x160_S256x160_0_0 : ∀ a, (![0, 0] : Fin 2 → Nat) a + S256x160.size a ≤ S256x160.size a
  h_S256x160 : 0 < S256x160.numel
  shapeCasts_S256x160_S256x160 : S256x160.ShapeCasts S256x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S2048x160 : S1x160.Broadcasts S2048x160
  inb_S2048_S2048_0 : ∀ a, (![0] : Fin 1 → Nat) a + S2048.size a ≤ S2048.size a
  h_S2048 : 0 < S2048.numel
  shapeCasts_S2048_S2048x1 : S2048.ShapeCasts S2048x1
  natLt_1_32 : 1 < 32
  slices_S2048x160_o0_0_S2048x10 : S2048x160.Slices ![0, 0] S2048x10
  broadcasts_S2048x1_S2048x10 : S2048x1.Broadcasts S2048x10
  slices_S2048x160_o0_10_S2048x10 : S2048x160.Slices ![0, 10] S2048x10
  slices_S2048x160_o0_20_S2048x10 : S2048x160.Slices ![0, 20] S2048x10
  slices_S2048x160_o0_30_S2048x10 : S2048x160.Slices ![0, 30] S2048x10
  slices_S2048x160_o0_40_S2048x10 : S2048x160.Slices ![0, 40] S2048x10
  slices_S2048x160_o0_50_S2048x10 : S2048x160.Slices ![0, 50] S2048x10
  slices_S2048x160_o0_60_S2048x10 : S2048x160.Slices ![0, 60] S2048x10
  slices_S2048x160_o0_70_S2048x10 : S2048x160.Slices ![0, 70] S2048x10
  slices_S2048x160_o0_80_S2048x10 : S2048x160.Slices ![0, 80] S2048x10
  slices_S2048x160_o0_90_S2048x10 : S2048x160.Slices ![0, 90] S2048x10
  slices_S2048x160_o0_100_S2048x10 : S2048x160.Slices ![0, 100] S2048x10
  slices_S2048x160_o0_110_S2048x10 : S2048x160.Slices ![0, 110] S2048x10
  slices_S2048x160_o0_120_S2048x10 : S2048x160.Slices ![0, 120] S2048x10
  slices_S2048x160_o0_130_S2048x10 : S2048x160.Slices ![0, 130] S2048x10
  slices_S2048x160_o0_140_S2048x10 : S2048x160.Slices ![0, 140] S2048x10
  slices_S2048x160_o0_150_S2048x10 : S2048x160.Slices ![0, 150] S2048x10
  inb_S2048x10_S2048x10_0_0 : ∀ a, (![0, 0] : Fin 2 → Nat) a + S2048x10.size a ≤ S2048x10.size a
  h_S2048x10 : 0 < S2048x10.numel
  dot_S2048x256_S256x160_S2048x160_1_0_0_1_n_n_wf : DotDims.WF S2048x256 S256x160 S2048x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S262144.size a
  hwx0_1 : ∀ i : grid0.Coords, EltTy.bits .i32 = 32 ∨ (Rect.block (s := S262144) S2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x160.size a ≤ S256x160.size a
  hwx0_2 : ∀ i : grid0.Coords, EltTy.bits .bf16 = 32 ∨ (Rect.block (s := S256x160) S256x160.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x160.size a ≤ S1x160.size a
  hwx0_3 : ∀ i : grid0.Coords, EltTy.bits .f32 = 32 ∨ (Rect.block (s := S1x160) S1x160.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x10.size a ≤ S262144x10.size a
  hwx0_4 : ∀ i : grid0.Coords, EltTy.bits .f32 = 32 ∨ (Rect.block (s := S262144x10) S2048x10.size (cc0_transform_4 i) (hinb0_4 i)).WholeWords (EltTy.packing .f32)

variable [Facts₀]

def dot_S2048x256_S256x160_S2048x160_1_0_0_1_n_n : DotDims S2048x256 S256x160 S2048x160 where
  lhsContracting := [1]
  rhsContracting := [0]
  lhsNonContracting := [0]
  rhsNonContracting := [1]
  lhsBatch := []
  rhsBatch := []
  wf := dot_S2048x256_S256x160_S2048x160_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S16x10x256 : Shape := ⟨3, ![16, 10, 256]⟩
abbrev S16x10 : Shape := ⟨2, ![16, 10]⟩
abbrev S262144x16x10 : Shape := ⟨3, ![262144, 16, 10]⟩
abbrev S1x16x10 : Shape := ⟨3, ![1, 16, 10]⟩
abbrev S262144x1x1 : Shape := ⟨3, ![262144, 1, 1]⟩
abbrev S_ : Shape := ⟨0, ![]⟩
abbrev S1 : Shape := ⟨1, ![1]⟩
abbrev S1x1x1 : Shape := ⟨3, ![1, 1, 1]⟩
abbrev S262144x1 : Shape := ⟨2, ![262144, 1]⟩
abbrev S262144x1x10 : Shape := ⟨3, ![262144, 1, 10]⟩
abbrev S262144x10 : Shape := ⟨2, ![262144, 10]⟩

abbrev nBuf : Space → Nat
  | .hbm => 32
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S16x10x256, .f32⟩
  | .hbm, ⟨3, _⟩ => ⟨S16x10, .f32⟩
  | .hbm, ⟨4, _⟩ => ⟨S262144x16x10, .f32⟩
  | .hbm, ⟨5, _⟩ => ⟨S1x16x10, .f32⟩
  | .hbm, ⟨6, _⟩ => ⟨S262144x16x10, .f32⟩
  | .hbm, ⟨7, _⟩ => ⟨S262144x16x10, .f32⟩
  | .hbm, ⟨8, _⟩ => ⟨S262144x1x1, .i32⟩
  | .hbm, ⟨9, _⟩ => ⟨S_, .i32⟩
  | .hbm, ⟨10, _⟩ => ⟨S262144x1x1, .i32⟩
  | .hbm, ⟨11, _⟩ => ⟨S262144x1x1, .i1⟩
  | .hbm, ⟨12, _⟩ => ⟨S_, .i32⟩
  | .hbm, ⟨13, _⟩ => ⟨S262144x1x1, .i32⟩
  | .hbm, ⟨14, _⟩ => ⟨S262144x1x1, .i32⟩
  | .hbm, ⟨15, _⟩ => ⟨S262144x1x1, .i32⟩
  | .hbm, ⟨16, _⟩ => ⟨S1, .i32⟩
  | .hbm, ⟨17, _⟩ => ⟨S_, .i32⟩
  | .hbm, ⟨18, _⟩ => ⟨S262144x1x1, .i32⟩
  | .hbm, ⟨19, _⟩ => ⟨S262144x1x1, .i1⟩
  | .hbm, ⟨20, _⟩ => ⟨S1x1x1, .i32⟩
  | .hbm, ⟨21, _⟩ => ⟨S262144x1x1, .i32⟩
  | .hbm, ⟨22, _⟩ => ⟨S262144x1x1, .i1⟩
  | .hbm, ⟨23, _⟩ => ⟨S262144x1x1, .i1⟩
  | .hbm, ⟨24, _⟩ => ⟨S_, .i1⟩
  | .hbm, ⟨25, _⟩ => ⟨S262144x1, .i1⟩
  | .hbm, ⟨26, _⟩ => ⟨S262144x1x10, .f32⟩
  | .hbm, ⟨27, _⟩ => ⟨S262144x1x10, .i1⟩
  | .hbm, ⟨28, _⟩ => ⟨S_, .f32⟩
  | .hbm, ⟨29, _⟩ => ⟨S262144x1x10, .f32⟩
  | .hbm, ⟨30, _⟩ => ⟨S262144x1x10, .f32⟩
  | .hbm, ⟨31, _⟩ => ⟨S262144x10, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S16x10_S1x16x10_1_2 : S16x10.BroadcastsInDim S1x16x10 (![1, 2] : Fin 2 → Fin S1x16x10.rank)
  bcast_S1x16x10_S262144x16x10_0_1_2 : S1x16x10.BroadcastsInDim S262144x16x10 (![0, 1, 2] : Fin 3 → Fin S262144x16x10.rank)
  bcast_S262144_S262144x1x1_0 : S262144.BroadcastsInDim S262144x1x1 (![0] : Fin 1 → Fin S262144x1x1.rank)
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  bcast_S262144x1_S262144x1x10_0_1 : S262144x1.BroadcastsInDim S262144x1x10 (![0, 1] : Fin 2 → Fin S262144x1x10.rank)
  bcast_S_S262144x1x10 : S_.BroadcastsInDim S262144x1x10 (![] : Fin 0 → Fin S262144x1x10.rank)
  shapeCasts_S262144x1x10_S262144x10 : S262144x1x10.ShapeCasts S262144x10
  dot_S262144x256_S16x10x256_S262144x16x10_1_2_0_01_n_n_wf : DotDims.WF S262144x256 S16x10x256 S262144x16x10 [1] [2] [0] [0, 1] [] []
  gather_S262144x16x10_S262144x1x1_S262144x1x10_2_1_0_0_1_2_1110_wf : GatherDims.WF S262144x16x10 S262144x1x1 S262144x1x10 [2] [1] [0] [1] [0] 2 ![1, 1, 10]

variable [Facts₀]

def dot_S262144x256_S16x10x256_S262144x16x10_1_2_0_01_n_n : DotDims S262144x256 S16x10x256 S262144x16x10 where
  lhsContracting := [1]
  rhsContracting := [2]
  lhsNonContracting := [0]
  rhsNonContracting := [0, 1]
  lhsBatch := []
  rhsBatch := []
  wf := dot_S262144x256_S16x10x256_S262144x16x10_1_2_0_01_n_n_wf
def gather_S262144x16x10_S262144x1x1_S262144x1x10_2_1_0_0_1_2_1110 : GatherDims S262144x16x10 S262144x1x1 S262144x1x10 where
  offsetDims := [2]
  collapsedSliceDims := [1]
  operandBatchingDims := [0]
  startIndicesBatchingDims := [0]
  startIndexMap := [1]
  indexVectorDim := 2
  sliceSizes := ![1, 1, 10]
  wf := gather_S262144x16x10_S262144x1x1_S262144x1x10_2_1_0_0_1_2_1110_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.HeadSelect.lean ====
/-
  One head out of sixteen, chosen by arithmetic on the extended reals.

  A row carries the number `s` of its head, `0 ≤ s < 16`, as a 32-bit word `w`. The kernel does not index with it: for
  every head `k` it compares `w` with `k`, makes the number 1 or 0 of the outcome, multiplies head `k`'s candidate by
  that number, and adds the sixteen products up from 0, head 0 first. On the extended reals `0 · x = 0` for EVERY `x`
  (the infinities too), `1 · x = x`, and `0` is neutral for `+`; so the sum is the candidate of the row's own head,
  and no candidate has to be finite for that.
-/
import Idealize.ShloMosaic.PureOps.Ideal

noncomputable section

namespace Cert.HeadSelect

open Idealize.ShloMosaic

/-- Two words compared for equality, the outcome widened to 32 bits and converted: 1 where they are equal, 0 where not. -/
theorem mask_eq (w k : BitVec 32) :
    FloatOps.sitofp (F := Ideal) .f32 ((IntOp.cmpi .eq w k).setWidth 32) = if w = k then (1 : EReal) else 0 := by
  show ((((IntOp.cmpi .eq w k).setWidth 32).toInt : ℝ) : EReal) = _
  by_cases h : w = k
  · have e : IntOp.cmpi .eq w k = 1#1 := by simp [IntOp.cmpi, h]
    rw [e, if_pos h, show ((1#1 : BitVec 1).setWidth 32).toInt = 1 from by decide]
    simp
  · have e : IntOp.cmpi .eq w k = 0#1 := by
      have hb : (w == k) = false := beq_eq_false_iff_ne.mpr h
      simp [IntOp.cmpi, hb]
    rw [e, if_neg h, show ((0#1 : BitVec 1).setWidth 32).toInt = 0 from by decide]
    simp

/-- The sixteen masked candidates, added up from 0 in the kernel's order, are the candidate of the word's own head. -/
theorem masked_sum (s : Fin 16) (w : BitVec 32) (hw : w = BitVec.ofNat 32 s.val) (L : Fin 16 → EReal) :
    (((((((((((((((((0 : EReal) + (if w = 0#32 then (1 : EReal) else 0) * L 0) + (if w = 1#32 then (1 : EReal) else 0) * L 1) + (if w = 2#32 then (1 : EReal) else 0) * L 2) + (if w = 3#32 then (1 : EReal) else 0) * L 3) + (if w = 4#32 then (1 : EReal) else 0) * L 4) + (if w = 5#32 then (1 : EReal) else 0) * L 5) + (if w = 6#32 then (1 : EReal) else 0) * L 6) + (if w = 7#32 then (1 : EReal) else 0) * L 7) + (if w = 8#32 then (1 : EReal) else 0) * L 8) + (if w = 9#32 then (1 : EReal) else 0) * L 9) + (if w = 10#32 then (1 : EReal) else 0) * L 10) + (if w = 11#32 then (1 : EReal) else 0) * L 11) + (if w = 12#32 then (1 : EReal) else 0) * L 12) + (if w = 13#32 then (1 : EReal) else 0) * L 13) + (if w = 14#32 then (1 : EReal) else 0) * L 14) + (if w = 15#32 then (1 : EReal) else 0) * L 15) = L s := by
  subst hw
  fin_cases s <;> simp

/-- A word that is at least 0 and below 16 as a signed number is one of the sixteen head numbers. -/
theorem word_is_head (w : BitVec 32) (h0 : IntOp.cmpi .sge w 0#32 = 1#1) (h1 : IntOp.cmpi .slt w 16#32 = 1#1) :
    ∃ s : Fin 16, w = BitVec.ofNat 32 s.val := by
  have hlt := w.isLt
  have z0 : (0#32 : BitVec 32).toInt = 0 := by decide
  have z16 : (16#32 : BitVec 32).toInt = 16 := by decide
  have ob : ∀ b : Bool, BitVec.ofBool b = 1#1 → b = true := by decide
  have a0 : (0#32 : BitVec 32).sle w = true := ob _ h0
  have a1 : w.slt 16#32 = true := ob _ h1
  simp only [BitVec.sle, BitVec.slt, z0, z16, decide_eq_true_eq] at a0 a1
  rw [BitVec.toInt_eq_toNat_cond] at a0 a1
  have hn : w.toNat < 16 := by
    split at a0 <;> omega
  exact ⟨⟨w.toNat, hn⟩, BitVec.eq_of_toNat_eq (by simp [BitVec.toNat_ofNat])⟩

end Cert.HeadSelect

end
-- ==== Proof.KernelBlock.lean ====
/-
  One block of the kernel, entry by entry.

  A grid point works on 2048 rows. Its body forms, for each row `p`, all 160 dense candidates
  `cand p j = Σ_k x[p, k] · Wflat[k, j] + bflat[0, j]` (the 160 columns are the 16 heads' 10 classes, head-major:
  column `10·s + q` is class `q` of head `s`), and then keeps, for class `q`, the candidate of the row's own head by the
  masked sum of `HeadSelect`. So where the row's index word is the head number `s`, entry `(p, q)` of the block is
  `cand p (10·s + q)`.
-/
import proofs.«421845_j87866440941679_1_alg».proof.Proof.PatchedValue
import proofs.«421845_j87866440941679_1_alg».proof.Proof.LibDot
import proofs.«421845_j87866440941679_1_alg».proof.Proof.HeadSelect
import Idealize.ShloMosaic.Lib.Pipeline.Value
import Idealize.ShloMosaic.Lib.ValueIdx
import Idealize.ShloMosaic.PureOps.Ideal.Laws

noncomputable section

namespace Cert.KernelIdeal.Heads

open Cert.KernelIdeal Cert.KernelIdeal.Gen Cert.KernelIdeal.ValueP Idealize.ShloMosaic Idealize.ShloMosaic.ValueIdx
open Idealize.ShloMosaic.TcCoe

/-- The column of class `q` of head `s` among the 160 dense candidates. -/
def col (s : Fin 16) (q : Fin 10) : Fin 160 := ⟨q.val + 10 * s.val, by have := q.isLt; have := s.isLt; omega⟩

/-- A dense candidate: the row's product with one column of the flattened weights, plus that column's bias. -/
theorem cand_at (P1 : Vec Ideal S2048x256 .f32) (P2 : Vec Ideal S256x160 .bf16) (P3 : Vec Ideal S1x160 .f32)
    (p : Fin 2048) (j : Fin 160) :
    k0_pay2 (F := Ideal) P1 P2 P3 (ix2 p j)
      = (∑ k : Fin 256, P1 (ix2 p k) * P2 (ix2 k j)) + P3 (ix2 (0 : Fin 1) j) := by
  unfold k0_pay2
  rw [addf_apply, shapeCast_self, shapeCast_self]
  congr 1
  · exact Cert.GNN.matmul_plain_zero_apply (M := 2048) (K := 256) (N := 160) none P1 P2 p j
  · exact broadcastTo_apply P3 broadcasts_S1x160_S2048x160 (ix2 p j) (ix2 (0 : Fin 1) j) (fun a => match a with
      | ⟨0, _⟩ => by show 0 = (if (1 : Nat) = 1 then 0 else p.val); rw [if_pos rfl]
      | ⟨1, _⟩ => by show j.val = (if (160 : Nat) = 1 then 0 else j.val); rw [if_neg (by decide)])

/-- Entry `(p, q)` of the block a point leaves, where row `p`'s index word is the head number `s`: the candidate of
    class `q` of head `s`. -/
theorem block_at (P0 : Vec Ideal S2048 .i32) (P1 : Vec Ideal S2048x256 .f32) (P2 : Vec Ideal S256x160 .bf16) (P3 : Vec Ideal S1x160 .f32)
    (p : Fin 2048) (q : Fin 10) (s : Fin 16) (hs : P0 (ix1 p) = BitVec.ofNat 32 s.val) :
    E4 (F := Ideal) P0 P1 P2 P3 (ix2 p q) = k0_pay2 (F := Ideal) P1 P2 P3 (ix2 p (col s q)) := by
  have h0 : P0 (ix4_0 (ix2 p q)) = BitVec.ofNat 32 s.val := by
    rw [show ix4_0 (ix2 p q) = ix1 p from funext fun a => match a with | ⟨0, _⟩ => rfl]
    exact hs
  have e5 : ∀ i, (k0_pay5) i = 4#32 := fun _ => rfl
  have i0 : ix4_1 (ix2 p q) = ix2 p (col 0 q) := funext fun a => match a with | ⟨0, _⟩ => rfl | ⟨1, _⟩ => rfl
  have i1 : ix4_3 (ix2 p q) = ix2 p (col 1 q) := funext fun a => match a with | ⟨0, _⟩ => rfl | ⟨1, _⟩ => rfl
  have i2 : ix4_5 (ix2 p q) = ix2 p (col 2 q) := funext fun a => match a with | ⟨0, _⟩ => rfl | ⟨1, _⟩ => rfl
  have i3 : ix4_7 (ix2 p q) = ix2 p (col 3 q) := funext fun a => match a with | ⟨0, _⟩ => rfl | ⟨1, _⟩ => rfl
  have i4 : ix4_10 (ix2 p q) = ix2 p (col 4 q) := funext fun a => match a with | ⟨0, _⟩ => rfl | ⟨1, _⟩ => rfl
  have i5 : ix4_12 (ix2 p q) = ix2 p (col 5 q) := funext fun a => match a with | ⟨0, _⟩ => rfl | ⟨1, _⟩ => rfl
  have i6 : ix4_14 (ix2 p q) = ix2 p (col 6 q) := funext fun a => match a with | ⟨0, _⟩ => rfl | ⟨1, _⟩ => rfl
  have i7 : ix4_16 (ix2 p q) = ix2 p (col 7 q) := funext fun a => match a with | ⟨0, _⟩ => rfl | ⟨1, _⟩ => rfl
  have i8 : ix4_18 (ix2 p q) = ix2 p (col 8 q) := funext fun a => match a with | ⟨0, _⟩ => rfl | ⟨1, _⟩ => rfl
  have i9 : ix4_20 (ix2 p q) = ix2 p (col 9 q) := funext fun a => match a with | ⟨0, _⟩ => rfl | ⟨1, _⟩ => rfl
  have i10 : ix4_22 (ix2 p q) = ix2 p (col 10 q) := funext fun a => match a with | ⟨0, _⟩ => rfl | ⟨1, _⟩ => rfl
  have i11 : ix4_24 (ix2 p q) = ix2 p (col 11 q) := funext fun a => match a with | ⟨0, _⟩ => rfl | ⟨1, _⟩ => rfl
  have i12 : ix4_26 (ix2 p q) = ix2 p (col 12 q) := funext fun a => match a with | ⟨0, _⟩ => rfl | ⟨1, _⟩ => rfl
  have i13 : ix4_28 (ix2 p q) = ix2 p (col 13 q) := funext fun a => match a with | ⟨0, _⟩ => rfl | ⟨1, _⟩ => rfl
  have i14 : ix4_30 (ix2 p q) = ix2 p (col 14 q) := funext fun a => match a with | ⟨0, _⟩ => rfl | ⟨1, _⟩ => rfl
  have i15 : ix4_32 (ix2 p q) = ix2 p (col 15 q) := funext fun a => match a with | ⟨0, _⟩ => rfl | ⟨1, _⟩ => rfl
  refine Eq.trans ?_ (Cert.HeadSelect.masked_sum s (P0 (ix4_0 (ix2 p q))) h0 (fun k => k0_pay2 (F := Ideal) P1 P2 P3 (ix2 p (col k q))))
  simp only [E4, e5, Ideal.addf_def, Ideal.mulf_def, Ideal.ofBits_def, Ideal.ofBits_zero_f32, Cert.HeadSelect.mask_eq, i0, i1, i2, i3, i4, i5, i6, i7, i8, i9, i10, i11, i12, i13, i14, i15]

end Cert.KernelIdeal.Heads

end
-- ==== Proof.Spec.lean ====
/-
  What both programs compute.

  Each of the 262144 rows `r` carries a feature vector `x[r, ·]` of length 256 and the number of its head, one of sixteen
  linear heads `W[s] : 10 × 256`, `b[s] : 10`. The result is the row's own head applied to the row:

      out[r, c] = Σ_k x[r, k] · W[s, c, k] + b[s, c],      s = the head of row r.

  The head number comes as a 32-bit word; `headOf` reads a word as a head (a head number's word reads as that head).
-/
import Idealize.ShloMosaic.PureOps.Ideal
import Idealize.ShloMosaic.Lib.ValueIdx

noncomputable section

namespace Cert.Heads

open Idealize.ShloMosaic Idealize.ShloMosaic.ValueIdx

/-- The head a word names: its value modulo 16. -/
def headOf (w : BitVec 32) : Fin 16 := ⟨w.toNat % 16, Nat.mod_lt _ (by decide)⟩

/-- The word of head number `s` names head `s`. -/
theorem headOf_head (s : Fin 16) : headOf (BitVec.ofNat 32 s.val) = s :=
  Fin.ext (by have := s.isLt; simp only [headOf, BitVec.toNat_ofNat]; omega)

/-- Entry `(r, c)`: class `c` of row `r`'s own head, applied to the row. -/
def entry (x : (⟨2, ![262144, 256]⟩ : Shape).Idx → EReal) (sid : (⟨1, ![262144]⟩ : Shape).Idx → BitVec 32)
    (W : (⟨3, ![16, 10, 256]⟩ : Shape).Idx → EReal) (b : (⟨2, ![16, 10]⟩ : Shape).Idx → EReal) (r : Fin 262144) (c : Fin 10) : EReal :=
  (∑ k : Fin 256, x (ix2 r k) * W (ix3 (headOf (sid (ix1 r))) c k)) + b (ix2 (headOf (sid (ix1 r))) c)

/-- The whole result array. -/
def logits (x : (⟨2, ![262144, 256]⟩ : Shape).Idx → EReal) (sid : (⟨1, ![262144]⟩ : Shape).Idx → BitVec 32)
    (W : (⟨3, ![16, 10, 256]⟩ : Shape).Idx → EReal) (b : (⟨2, ![16, 10]⟩ : Shape).Idx → EReal) :
    (⟨2, ![262144, 10]⟩ : Shape).Idx → EReal :=
  fun i => entry x sid W b (i 0) (i 1)

/-- Where the row's word is the head number `s`, the entry uses head `s`. -/
theorem entry_of_head (x : (⟨2, ![262144, 256]⟩ : Shape).Idx → EReal) (sid : (⟨1, ![262144]⟩ : Shape).Idx → BitVec 32)
    (W : (⟨3, ![16, 10, 256]⟩ : Shape).Idx → EReal) (b : (⟨2, ![16, 10]⟩ : Shape).Idx → EReal) (r : Fin 262144) (c : Fin 10)
    (s : Fin 16) (hs : sid (ix1 r) = BitVec.ofNat 32 s.val) :
    entry x sid W b r c = (∑ k : Fin 256, x (ix2 r k) * W (ix3 s c k)) + b (ix2 s c) := by
  unfold entry
  rw [hs, headOf_head]

end Cert.Heads

end
-- ==== Proof.KernelArray.lean ====
/-
  From the blocks to the array.

  The grid has 128 points; point `t` works on rows `2048·t … 2048·t + 2047`. Its four input blocks are: those rows of
  `x`; those rows' head words; the whole flattened weight table `Wflat[k, 10·s + q] = W[s, q, k]` (the program's own
  transpose, reshape and format change of `W` before the region; the format change is the identity on extended reals);
  and the whole flattened bias `bflat[0, 10·s + q] = b[s, q]`. By `KernelBlock`, entry `(p, q)` of what the point
  writes back is the candidate of class `q` of row `2048·t + p`'s own head: `Heads.entry` at `(2048·t + p, q)`.
  The 128 blocks tile the 262144 rows, so the array after the run is `Heads.logits` everywhere.
-/
import proofs.«421845_j87866440941679_1_alg».proof.Proof.KernelBlock
import proofs.«421845_j87866440941679_1_alg».proof.Proof.Spec
import Idealize.ShloMosaic.Lib.StableHlo.Run

noncomputable section

namespace Cert.KernelIdeal.Heads

open Cert.KernelIdeal Cert.KernelIdeal.Gen Cert.KernelIdeal.ValueP Idealize.ShloMosaic Idealize.ShloMosaic.ValueIdx
open Idealize.ShloMosaic.TcCoe Idealize.SL.Sem Idealize.ShloMosaic.StableHlo
open Idealize.ShloMosaic.Pipeline (Dat)
open Cert.Heads

variable (m : (ℓ : Loc nD τ sig) → Buf (Elt Ideal) ℓ) (ρ : Dev nD → PrngReg)

/-! ## The two tables the program flattens before the region -/

/-- The flattened weights as the region finds them: `W` transposed to `[256, 16, 10]`, reshaped to `[256, 160]`. -/
theorem wflat_eq (c : Dev nD) :
    (V m c main_v2 : S256x160.Idx → EReal)
      = (truncf (F := Ideal) .bf16 (shapeCast S256x160 (transpose S256x16x10 [2, 0, 1]
          (m ((c : Thread nD τ).loc main_arg2) : S16x10x256.Idx → EReal)
          transposes_S16x10x256_S256x16x10_2_0_1) shapeCasts_S256x16x10_S256x160) bitsLt_bf16_f32 : S256x160.Idx → EReal) := by
  dsimp only [V, hostOps0]; after_results; rfl

/-- Column `10·s + q` of the flattened weights is head `s`'s class `q`. -/
theorem wflat_at (c : Dev nD) (k : Fin 256) (s : Fin 16) (q : Fin 10) :
    (V m c main_v2 : S256x160.Idx → EReal) (ix2 k (col s q)) = m ((c : Thread nD τ).loc main_arg2) (ix3 s q k) := by
  rw [wflat_eq, truncf_apply,
    shapeCast_apply _ shapeCasts_S256x16x10_S256x160 (ix2 k (col s q)) (ix3 k s q)
      (by rewrite [Shape.rowMajor_val_three, Shape.rowMajor_val_two]
          have hs := s.isLt; have hq := q.isLt
          show (k.val * 16 + s.val) * 10 + q.val = k.val * 160 + (q.val + 10 * s.val); omega),
    transpose_apply [2, 0, 1] _ transposes_S16x10x256_S256x16x10_2_0_1 (ix3 k s q) (ix3 s q k)
      (fun b => match b with | ⟨0, _⟩ => rfl | ⟨1, _⟩ => rfl | ⟨2, _⟩ => rfl)]

/-- The flattened bias as the region finds it: `b` reshaped to `[1, 160]`. -/
theorem bflat_eq (c : Dev nD) :
    (V m c main_v3 : S1x160.Idx → EReal)
      = (shapeCast S1x160 (m ((c : Thread nD τ).loc main_arg3) : S16x10.Idx → EReal) shapeCasts_S16x10_S1x160 : S1x160.Idx → EReal) := by
  dsimp only [V, hostOps0]; after_results; rfl

/-- Column `10·s + q` of the flattened bias is head `s`'s class `q`. -/
theorem bflat_at (c : Dev nD) (s : Fin 16) (q : Fin 10) :
    (V m c main_v3 : S1x160.Idx → EReal) (ix2 (0 : Fin 1) (col s q)) = m ((c : Thread nD τ).loc main_arg3) (ix2 s q) := by
  rw [bflat_eq,
    shapeCast_apply _ shapeCasts_S16x10_S1x160 (ix2 (0 : Fin 1) (col s q)) (ix2 s q)
      (by rewrite [Shape.rowMajor_val_two, Shape.rowMajor_val_two]
          have hs := s.isLt; have hq := q.isLt
          show s.val * 10 + q.val = 0 * 160 + (q.val + 10 * s.val); omega)]

/-! ## The blocks of one grid point -/

theorem hz2 : (![0, 0] : Fin 2 → Nat) = fun _ => 0 := funext fun a => by fin_cases a <;> rfl
theorem hz1 : (![0] : Fin 1 → Nat) = fun _ => 0 := funext fun a => by fin_cases a; rfl

/-- What a point leaves in the output block at `(p, q)`, over its four input blocks as variables, where row `p`'s word is
    the head number `s`: the row's product with column `10·s + q` of the flattened weights, plus that column's bias. -/
theorem out_at (X0 : Vec Ideal S2048x256 .f32) (X1 : Vec Ideal S2048 .i32) (X2 : Vec Ideal S256x160 .bf16) (X3 : Vec Ideal S1x160 .f32)
    (p : Fin 2048) (q : Fin 10) (s : Fin 16) (hs : X1 (ix1 p) = BitVec.ofNat 32 s.val) :
    out0_4 (F := Ideal) X0 X1 X2 X3 (ix2 p q)
      = (∑ k : Fin 256, X0 (ix2 p k) * X2 (ix2 k (col s q))) + X3 (ix2 (0 : Fin 1) (col s q)) := by
  unfold out0_4
  rw [canon4_eq]
  simp only [View.ld_unit_zero (S := S2048x256) hz2, View.ld_unit_zero (S := S256x160) hz2, View.ld_unit_zero (S := S1x160) hz2,
    View.ld_unit_zero (S := S2048) hz1]
  rw [block_at _ _ _ _ p q s hs, cand_at]

/-- The printed index maps, decided over the 128 points: the row blocks of `x`, of the head words and of the output move
    with the point; the two flattened tables are one block each. -/
theorem idx_facts : ∀ t : Fin cfg0.N,
    win0_0.index t (0 : Fin 2) = t.val ∧ win0_0.index t (1 : Fin 2) = 0
    ∧ win0_1.index t (0 : Fin 1) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s blocks is row `2048·t + p` of the arrays. -/
def row (t : Fin cfg0.N) (p : Fin 2048) : Fin 262144 :=
  ⟨t.val * 2048 + p.val, by have h : cfg0.N = 128 := N_0; have := t.isLt; have := p.isLt; omega⟩

/-- The point's block of `x`. -/
theorem xblk_at (c : Dev nD) (t : Fin cfg0.N) (p : Fin 2048) (k : Fin 256) :
    (iblk m c 0 t : S2048x256.Idx → EReal) (ix2 p k) = m ((c : Thread nD τ).loc main_arg0) (ix2 (row t p) k) := by
  show V m c main_arg0 (((cfg0.win 0).blk t).view.emb (ix2 p k)) = _
  rw [V_main_arg0]
  obtain ⟨e00, e01, -⟩ := idx_facts t
  congr 1; funext a; apply Fin.ext
  match a with
  | ⟨0, _⟩ => show win0_0.index t (0 : Fin 2) * 2048 + 1 * p.val = t.val * 2048 + p.val; omega
  | ⟨1, _⟩ => show win0_0.index t (1 : Fin 2) * 256 + 1 * k.val = k.val; omega

/-- The point's block of head words. -/
theorem sidblk_at (c : Dev nD) (t : Fin cfg0.N) (p : Fin 2048) :
    (iblk m c 1 t : S2048.Idx → BitVec 32) (ix1 p) = m ((c : Thread nD τ).loc main_arg1) (ix1 (row t p)) := by
  show V m c main_arg1 (((cfg0.win 1).blk t).view.emb (ix1 p)) = _
  rw [V_main_arg1]
  obtain ⟨-, -, e10, -⟩ := idx_facts t
  congr 1; funext a; apply Fin.ext
  match a with
  | ⟨0, _⟩ => show win0_1.index t (0 : Fin 1) * 2048 + 1 * p.val = t.val * 2048 + p.val; omega

/-- The flattened weights come whole at every point. -/
theorem wblk_at (c : Dev nD) (t : Fin cfg0.N) (k : Fin 256) (j : Fin 160) :
    (iblk m c 2 t : S256x160.Idx → EReal) (ix2 k j) = (V m c main_v2 : S256x160.Idx → EReal) (ix2 k j) := by
  show V m c main_v2 (((cfg0.win 2).blk t).view.emb (ix2 k j)) = _
  obtain ⟨-, -, -, e20, e21, -⟩ := idx_facts t
  congr 1; funext a; apply Fin.ext
  match a with
  | ⟨0, _⟩ => show win0_2.index t (0 : Fin 2) * 256 + 1 * k.val = k.val; omega
  | ⟨1, _⟩ => show win0_2.index t (1 : Fin 2) * 160 + 1 * j.val = j.val; omega

/-- So does the flattened bias. -/
theorem bblk_at (c : Dev nD) (t : Fin cfg0.N) (j : Fin 160) :
    (iblk m c 3 t : S1x160.Idx → EReal) (ix2 (0 : Fin 1) j) = (V m c main_v3 : S1x160.Idx → EReal) (ix2 (0 : Fin 1) j) := by
  show V m c main_v3 (((cfg0.win 3).blk t).view.emb (ix2 (0 : Fin 1) j)) = _
  obtain ⟨-, -, -, -, -, e30, e31, -⟩ := idx_facts t
  congr 1; funext a; apply Fin.ext
  match a with
  | ⟨0, _⟩ => show win0_3.index t (0 : Fin 2) * 1 + 1 * 0 = 0; omega
  | ⟨1, _⟩ => show win0_3.index t (1 : Fin 2) * 160 + 1 * j.val = j.val; omega

/-- Entry `(p, q)` of the point's output block sits at `(2048·t + p, q)` of the output array. -/
theorem oblk_emb (t : Fin cfg0.N) (p : Fin 2048) (q : Fin 10) :
    ((cfg0.win 4).blk t).view.emb (ix2 p q) = ix2 (row t p) q := by
  obtain ⟨-, -, -, -, -, -, -, e40, e41⟩ := idx_facts t
  funext a; apply Fin.ext
  match a with
  | ⟨0, _⟩ => show win0_4.index t (0 : Fin 2) * 2048 + 1 * p.val = t.val * 2048 + p.val; omega
  | ⟨1, _⟩ => show win0_4.index t (1 : Fin 2) * 10 + 1 * q.val = q.val; omega

/-! ## The array after the run -/

/-- Every row's word is a head number: what the precondition's range conjunct says of the launch contents. -/
def HeadsOK (c : Dev nD) : Prop := ∀ r : Fin 262144, ∃ s : Fin 16, m ((c : Thread nD τ).loc main_arg1) (ix1 r) = BitVec.ofNat 32 s.val

/-- The result array of the launch contents. -/
abbrev result (c : Dev nD) : S262144x10.Idx → EReal :=
  logits (m ((c : Thread nD τ).loc main_arg0)) (m ((c : Thread nD τ).loc main_arg1)) (m ((c : Thread nD τ).loc main_arg2)) (m ((c : Thread nD τ).loc main_arg3))

/-- WHAT POINT `t` WRITES BACK is block `t` of the result. -/
theorem flushed_eq (c : Dev nD) (hh : HeadsOK m c) (t : Fin cfg0.N) :
    (dats m 0 c).flushed 4 t = ((cfg0.win 4).blk t).view.read (Elt Ideal) (result m c) := by
  rw [flushed4]
  funext y
  obtain ⟨p, q, rfl⟩ : ∃ (p : Fin 2048) (q : Fin 10), y = ix2 p q := ⟨y 0, y 1, eq_ix2 y⟩
  show out0_4 (iblk m c 0 t) (iblk m c 1 t) (iblk m c 2 t) (iblk m c 3 t) (ix2 p q) = result m c (((cfg0.win 4).blk t).view.emb (ix2 p q))
  obtain ⟨s, hs⟩ := hh (row t p)
  rw [oblk_emb, out_at _ _ _ _ p q s ((sidblk_at m c t p).trans hs)]
  show _ = entry _ _ _ _ (row t p) q
  rw [entry_of_head _ _ _ _ (row t p) q s hs, bblk_at, bflat_at]
  congr 1
  refine Finset.sum_congr rfl fun k _ => ?_
  rw [xblk_at, wblk_at, wflat_at]

/-- An index of the output array is in point `t`'s block iff its row is one of the point's 2048. -/
theorem mem_blk (t : Fin cfg0.N) (i : S262144x10.Idx) :
    i ∈ ((cfg0.win 4).blk t).view.set ↔ ∀ a : Fin 2, win0_4.index t a * S2048x10.size a ≤ (i a).val ∧ (i a).val < win0_4.index t a * S2048x10.size a + S2048x10.size a := by
  show i ∈ ((View.whole main_v4).slice (win0_4.rect t)).set ↔ _
  rw [View.set_slice_whole, Rect.mem_set_unit]
  exact Iff.rfl

/-- The 128 blocks cover every index: row `r` is in the block of point `r / 2048`. -/
theorem cover (i : S262144x10.Idx) : ∃ t : Fin cfg0.N, (cfg0.win 4).flush t = true ∧ i ∈ ((cfg0.win 4).blk t).view.set := by
  have hi0 : (i 0).val < 262144 := (i 0).isLt
  have hi1 : (i 1).val < 10 := (i 1).isLt
  have hN : cfg0.N = 128 := N_0
  let t : Fin cfg0.N := ⟨(i 0).val / 2048, by omega⟩
  obtain ⟨-, -, -, -, -, -, -, e40, e41⟩ := idx_facts t
  have ht : t.val = (i 0).val / 2048 := rfl
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 10 ≤ (i 1).val ∧ (i 1).val < win0_4.index t (1 : Fin 2) * 10 + 10; omega

/-- THE ARRAY after the run is the result. -/
theorem final (c : Dev nD) (hh : HeadsOK m c) : (dats m 0 c).arrAt 4 cfg0.N = result m c :=
  (dats m 0 c).arrAt_eq_of_cover 4 (result m c) (fun t _ => flushed_eq m c hh t) cover

/-- The kernel's run, read: every weakly fair execution ends with the output array at the result of the launch contents and
    the arguments as they were. -/
theorem run (hh : ∀ c, HeadsOK m c) :
    θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hh c)), (h c).2⟩) (run_blocks m ρ)

end Cert.KernelIdeal.Heads

end
-- ==== Proof.LibAndReduce.lean ====
/-
  An `and`-reduction of ones is one.

  `jnp.all`, and every `stablehlo.reduce` by `and` from the constant 1, folds the one-bit words that reduce into a
  result position, starting from the initial word. If the initial word is 1 and every word that reduces into position
  `j` is 1, the result at `j` is 1. (The converse direction, from the result being 1 to every word being 1, is the
  library's `Host.reduce_andi_eq_one`.)
-/
import Idealize.ShloMosaic.PureOps.Reduce

namespace Idealize.ShloMosaic

namespace IntOp

/-- A left fold by `and` from 1 over words that are all 1 is 1. -/
theorem foldl_andi_of_all_one {ι : Type} (f : ι → BitVec 1) :
    ∀ l : List ι, (∀ n ∈ l, f n = 1#1) → l.foldl (fun r n => andi r (f n)) 1#1 = 1#1
  | [], _ => rfl
  | a :: l, h => by
    rw [List.foldl_cons, h a (List.mem_cons_self ..), show andi (1#1 : BitVec 1) 1#1 = 1#1 from by decide]
    exact foldl_andi_of_all_one f l fun n hn => h n (List.mem_cons_of_mem _ hn)

end IntOp

namespace Host

variable {s t u : Shape} {axes : List (Fin s.rank)}

/-- A `stablehlo.reduce` by `and` whose initial word is 1 is 1 at `j` when every operand word that reduces into `j` is 1. -/
theorem reduce_andi_of_all_one (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  exact IntOp.foldl_andi_of_all_one x _ fun i hi => hx i (by simpa using (List.mem_filter.1 hi).2)

end Host

end Idealize.ShloMosaic
-- ==== Proof.RefRead.lean ====
/-
  The reference, entry by entry.

  The reference forms every head's candidates `all[r, s, c] = Σ_k x[r, k] · W[s, c, k] + b[s, c]` and then takes, for
  row `r`, the slice of head `system_id[r]` (jnp's `take_along_axis`): a negative index is first moved up by 16, an
  index outside `0 … 15` after that yields the fill value, and the slice itself is a gather whose start index is
  clamped into `0 … 15`. Where the row's index word is a head number `s` (so `0 ≤ s < 16`), nothing is moved, the range
  test passes, the clamp does nothing, and the entry `(r, c)` of the result is `all[r, s, c]`.
-/
import proofs.«421845_j87866440941679_1_alg».proof.Proof.PatchedRead
import proofs.«421845_j87866440941679_1_alg».proof.Proof.LibAndReduce
import Idealize.ShloMosaic.Lib.ValueIdx
import Idealize.ShloMosaic.PureOps.Ideal.Laws

noncomputable section

namespace Cert.ReferenceIdeal.Heads

open Cert.ReferenceIdeal Cert.ReferenceIdeal.Gen Cert.ReferenceIdeal.ReadP Idealize.ShloMosaic Idealize.ShloMosaic.ValueIdx
open Idealize.ShloMosaic.TcCoe

variable (x0 : (⟨S262144x256, .f32⟩ : BufTy).Contents (Elt Ideal)) (x1 : (⟨S262144, .i32⟩ : BufTy).Contents (Elt Ideal))
  (x2 : (⟨S16x10x256, .f32⟩ : BufTy).Contents (Elt Ideal)) (x3 : (⟨S16x10, .f32⟩ : BufTy).Contents (Elt Ideal))

/-- The sixteen head numbers, as words, are not negative, … -/
theorem head_not_neg : ∀ s : Fin 16, IntOp.cmpi .slt (BitVec.ofNat 32 s.val) 0#32 = 0#1 := by decide
/-- … pass the range test `0 ≤ · ≤ 15`, … -/
theorem head_in_range : ∀ s : Fin 16,
    IntOp.andi (IntOp.cmpi .sge (BitVec.ofNat 32 s.val) 0#32) (IntOp.cmpi .sle (BitVec.ofNat 32 s.val) 15#32) = 1#1 := by decide
/-- … and are their own clamp into `0 … 15`. -/
theorem head_clamp : ∀ s : Fin 16, min (BitVec.ofNat 32 s.val).toInt.toNat (16 - 1) = s.val := by decide

/-- The index the gather starts from, at row `r`: the row's word itself, a head number being non-negative. -/
theorem start_at (r : Fin 262144) (s : Fin 16) (hs : x1 (ix1 r) = BitVec.ofNat 32 s.val) :
    val_main_call0_v4 (F := Ideal) x1 (ix3 r (0 : Fin 1) (0 : Fin 1)) = BitVec.ofNat 32 s.val := by
  have e : idx_main_v4 (ix3 r (0 : Fin 1) (0 : Fin 1)) = ix1 r := funext fun a => match a with | ⟨0, _⟩ => rfl
  rw [val_main_call0_v4_apply, val_main_call0_v1_apply, val_main_v4_apply, val_main_call0_v0_apply, val_main_call0_c_apply,
    e, hs, head_not_neg s, select_zero]

/-- The range test at row `r` passes. -/
theorem inrange_at (r : Fin 262144) (s : Fin 16) (hs : x1 (ix1 r) = BitVec.ofNat 32 s.val) :
    val_main_call0_v11 (F := Ideal) x1 (ix2 r (0 : Fin 1)) = 1#1 := by
  unfold val_main_call0_v11
  refine Host.reduce_andi_of_all_one _ _ _ _ _ rfl fun i hi => ?_
  have hi0 : (i 0).val = r.val := by
    have := congrArg (fun j : S262144x1.Idx => (j 0).val) hi
    exact this
  have h1 : (i 1).val < 1 := (i 1).isLt
  have h2 : (i 2).val < 1 := (i 2).isLt
  have ei : i = ix3 r (0 : Fin 1) (0 : Fin 1) := funext fun a => Fin.ext (by
    match a with
    | ⟨0, _⟩ => exact hi0
    | ⟨1, _⟩ => show (i 1).val = 0; omega
    | ⟨2, _⟩ => show (i 2).val = 0; omega)
  rw [ei, val_main_call0_v10_apply, val_main_call0_v6_apply, val_main_call0_v9_apply, start_at x1 r s hs,
    val_main_call0_v5_apply, val_main_call0_c_2_apply, val_main_call0_v8_apply, val_main_call0_v7_apply, val_main_call0_c_1_apply]
  exact head_in_range s

/-- The gathered element's first coordinate is the row (the batching axis), … -/
theorem gather_ax0 (idx : IVec S262144x1x1 32) (r : Fin 262144) (c : Fin 10) :
    (gather_S262144x16x10_S262144x1x1_S262144x1x10_2_1_0_0_1_2_1110.operandIdx (ix3 r (0 : Fin 1) c) idx (0 : Fin 3)).val = r.val := by
  show gather_S262144x16x10_S262144x1x1_S262144x1x10_2_1_0_0_1_2_1110.start (ix3 r (0 : Fin 1) c) idx 0 + gather_S262144x16x10_S262144x1x1_S262144x1x10_2_1_0_0_1_2_1110.batchCoord (ix3 r (0 : Fin 1) c) 0 + gather_S262144x16x10_S262144x1x1_S262144x1x10_2_1_0_0_1_2_1110.offCoord (ix3 r (0 : Fin 1) c) 0 = _
  rw [GatherDims.start_batching _ _ _ _ (by decide), GatherDims.offCoord_eq_zero _ _ _ (by decide)]
  unfold GatherDims.batchCoord
  rw [dif_pos (by decide)]
  simp only [Nat.zero_add, Nat.add_zero]
  rfl

/-- … its third the class (the offset axis), … -/
theorem gather_ax2 (idx : IVec S262144x1x1 32) (r : Fin 262144) (c : Fin 10) :
    (gather_S262144x16x10_S262144x1x1_S262144x1x10_2_1_0_0_1_2_1110.operandIdx (ix3 r (0 : Fin 1) c) idx (2 : Fin 3)).val = c.val := by
  show gather_S262144x16x10_S262144x1x1_S262144x1x10_2_1_0_0_1_2_1110.start (ix3 r (0 : Fin 1) c) idx 2 + gather_S262144x16x10_S262144x1x1_S262144x1x10_2_1_0_0_1_2_1110.batchCoord (ix3 r (0 : Fin 1) c) 2 + gather_S262144x16x10_S262144x1x1_S262144x1x10_2_1_0_0_1_2_1110.offCoord (ix3 r (0 : Fin 1) c) 2 = _
  rw [GatherDims.batchCoord_eq_zero _ _ _ (by decide)]
  unfold GatherDims.start GatherDims.offCoord
  rw [dif_neg (by decide), dif_pos (by decide)]
  simp only [Nat.zero_add, Nat.add_zero]
  rfl

/-- … and its second the row's start index, read signed and clamped into `0 … 15` (the collapsed axis). -/
theorem gather_ax1 (idx : IVec S262144x1x1 32) (r : Fin 262144) (c : Fin 10) :
    (gather_S262144x16x10_S262144x1x1_S262144x1x10_2_1_0_0_1_2_1110.operandIdx (ix3 r (0 : Fin 1) c) idx (1 : Fin 3)).val = min (idx (ix3 r (0 : Fin 1) (0 : Fin 1))).toInt.toNat (16 - 1) := by
  show gather_S262144x16x10_S262144x1x1_S262144x1x10_2_1_0_0_1_2_1110.start (ix3 r (0 : Fin 1) c) idx 1 + gather_S262144x16x10_S262144x1x1_S262144x1x10_2_1_0_0_1_2_1110.batchCoord (ix3 r (0 : Fin 1) c) 1 + gather_S262144x16x10_S262144x1x1_S262144x1x10_2_1_0_0_1_2_1110.offCoord (ix3 r (0 : Fin 1) c) 1 = _
  rw [GatherDims.batchCoord_eq_zero _ _ _ (by decide), GatherDims.offCoord_eq_zero _ _ _ (by decide)]
  unfold GatherDims.start
  rw [dif_pos (by decide)]
  have hsi : gather_S262144x16x10_S262144x1x1_S262144x1x10_2_1_0_0_1_2_1110.siIdx (ix3 r (0 : Fin 1) c) ⟨List.idxOf (1 : Fin 3) gather_S262144x16x10_S262144x1x1_S262144x1x10_2_1_0_0_1_2_1110.startIndexMap,
      List.idxOf_lt_length_iff.2 (by decide)⟩ = ix3 r (0 : Fin 1) (0 : Fin 1) := by
    funext b; refine Fin.ext ?_
    match b with
    | ⟨0, _⟩ => rfl
    | ⟨1, _⟩ => rfl
    | ⟨2, _⟩ => rfl
  rw [hsi]
  rfl

/-- The batched gather at `(r, 0, c)`, where row `r`'s start index is the head number `s`: the operand at `(r, s, c)`. -/
theorem gather_at {α : Type} (x : S262144x16x10.Idx → α) (idx : IVec S262144x1x1 32) (r : Fin 262144) (c : Fin 10) (s : Fin 16)
    (hidx : idx (ix3 r (0 : Fin 1) (0 : Fin 1)) = BitVec.ofNat 32 s.val) :
    Host.gather gather_S262144x16x10_S262144x1x1_S262144x1x10_2_1_0_0_1_2_1110 x idx (ix3 r (0 : Fin 1) c) = x (ix3 r s c) := by
  unfold Host.gather
  congr 1
  funext a
  refine Fin.ext ?_
  match a with
  | ⟨0, _⟩ => exact gather_ax0 idx r c
  | ⟨1, _⟩ => exact (gather_ax1 idx r c).trans (by rw [hidx]; exact head_clamp s)
  | ⟨2, _⟩ => exact gather_ax2 idx r c

/-- THE REFERENCE AT `(r, c)`, where row `r`'s index word is the head number `s`: head `s`'s class `c` applied to the row. -/
theorem ref_at (r : Fin 262144) (c : Fin 10) (s : Fin 16) (hs : x1 (ix1 r) = BitVec.ofNat 32 s.val) :
    val_main_v6 (F := Ideal) x0 x1 x2 x3 (ix2 r c) = (∑ k : Fin 256, x0 (ix2 r k) * x2 (ix3 s c k)) + x3 (ix2 s c) := by
  have e6 : idx_main_v6 (ix2 r c) = ix3 r (0 : Fin 1) c := funext fun a => Fin.ext (by
    have hc := c.isLt
    match a with
    | ⟨0, _⟩ => show (r.val * 10 + c.val) / 10 = r.val; omega
    | ⟨1, _⟩ => rfl
    | ⟨2, _⟩ => show (r.val * 10 + c.val) % 10 = c.val; omega)
  have e13 : idx_main_call0_v13 (ix3 r (0 : Fin 1) c) = ix2 r (0 : Fin 1) := funext fun a => match a with | ⟨0, _⟩ => rfl | ⟨1, _⟩ => rfl
  rw [val_main_v6_apply, e6, val_main_v5_apply, val_main_call0_v13_apply, e13, inrange_at x1 r s hs, select_one]
  unfold val_main_call0_v12
  have el : ∀ k : Fin 256, lidx_main_v0 (ix3 r s c) k = ix2 r k := fun k =>
    funext fun a => match a with | ⟨0, _⟩ => rfl | ⟨1, _⟩ => rfl
  have er : ∀ k : Fin 256, ridx_main_v0 (ix3 r s c) k = ix3 s c k := fun k =>
    funext fun a => match a with | ⟨0, _⟩ => rfl | ⟨1, _⟩ => rfl | ⟨2, _⟩ => rfl
  have eb : idx_main_v1 (idx_main_v2 (ix3 r s c)) = ix2 s c :=
    funext fun a => match a with | ⟨0, _⟩ => rfl | ⟨1, _⟩ => rfl
  rw [gather_at _ _ r c s (start_at x1 r s hs), val_main_v3_apply, val_main_v0_apply, val_main_v2_apply, val_main_v1_apply, eb]
  simp only [el, er]
  rfl

end Cert.ReferenceIdeal.Heads

end
-- ==== Proof.Range.lean ====
/-
  What the precondition says of the head words.

  The precondition is the conjunction of four `all`s: the three float inputs finite everywhere, and every head word at
  least 0 and below 16 as a signed number. Read at a row, the last one says that the row's word is one of the sixteen
  head numbers; the proof uses nothing else of the precondition (the selection by masks needs no finiteness).
-/
import proofs.«421845_j87866440941679_1_alg».proof.Pre_finite_inputs
import proofs.«421845_j87866440941679_1_alg».proof.Proof.HeadSelect
import Idealize.ShloMosaic.Lib.ReduceAll
import Idealize.ShloMosaic.Lib.ValueIdx

noncomputable section

namespace Cert.Pre_finite_inputs.Heads

open Idealize.ShloMosaic Idealize.ShloMosaic.ValueIdx Cert.Pre_finite_inputs

variable {F : FTy → Type} [FloatOps F] [Facts]

instance : Subsingleton S_.Idx := ⟨fun a b => funext fun d => d.elim0⟩

/-- Under the precondition every row's word is a head number. -/
theorem heads_of_pre (x : FVec F S262144x256 .f32) (sid : IVec S262144 32) (W : FVec F S16x10x256 .f32) (b : FVec F S16x10 .f32)
    (h : fn (F := F) x sid W b = fun _ => 1#1) (r : Fin 262144) : ∃ s : Fin 16, sid (ix1 r) = BitVec.ofNat 32 s.val := by
  have h0 := congrFun h ix0
  dsimp only [fn, fn_part1] at h0
  obtain ⟨-, h19⟩ := IntOp.andi_eq_one.1 h0
  have hr := Host.reduce_andi_all _ _ _ _ ix0 h19 (ix1 r)
  obtain ⟨hge, hlt⟩ := IntOp.andi_eq_one.1 hr
  exact Cert.HeadSelect.word_is_head _ hge hlt

end Cert.Pre_finite_inputs.Heads

end
-- ==== Proof.lean ====
/-
  Sixteen linear heads, one per row: the kernel's masked sum against the reference's gather.

  The inputs are `x : [262144, 256]`, a head number per row `system_id : [262144]` (32-bit words), and sixteen heads
  `W : [16, 10, 256]`, `b : [16, 10]`. The reference forms all heads' candidates `Σ_k x[r, k] · W[s, c, k] + b[s, c]` and
  takes head `system_id[r]` of row `r` with `take_along_axis`. The kernel flattens the heads into one `[256, 160]` table
  (column `10·s + c` is class `c` of head `s`), multiplies each block of 2048 rows with it, adds the flattened bias, and
  keeps class `c` of the row's own head by adding up, over the sixteen heads `k`, the number `[system_id[r] = k]` (1 or 0)
  times the candidate of head `k`.

  The statement carries, beside the finiteness of the float inputs, the conjunct `0 ≤ system_id < 16`: the index is in
  the range of the axis it indexes. Outside it the two programs differ (at `system_id = -1` the reference wraps to head 15
  while every mask of the kernel is 0), so the conjunct is needed; under it both results are
  `Heads.logits` (Proof/Spec.lean), entry by entry:
  · the reference, because a head number is not negative, passes the range test and is its own clamp
    (Proof/RefRead.lean, over the reference's run read one operation at a time);
  · the kernel, because on the extended reals `0 · x = 0` for every `x`, `1 · x = x` and `0` is neutral for `+`, so the masked
    sum is the candidate of the row's own head (Proof/HeadSelect.lean, Proof/KernelBlock.lean), the flattened tables
    read back as `W` and `b`, and the 128 blocks tile the rows (Proof/KernelArray.lean).
  The two sums over `k` are one and the same sum, term by term, so no law of the extended reals beyond those three is
  used and the finiteness of the inputs is never opened.
  The three frames are the generated ones (the reference's is its run with the result dropped); nothing was rewritten
  by the ideal pass, so there is nothing to preserve.
-/
import proofs.«421845_j87866440941679_1_alg».proof.Defs
import proofs.«421845_j87866440941679_1_alg».proof.Proof.Gen.Kernel
import proofs.«421845_j87866440941679_1_alg».proof.Proof.Gen.Kernel.Skeleton
import proofs.«421845_j87866440941679_1_alg».proof.Proof.Gen.Kernel.Launch
import proofs.«421845_j87866440941679_1_alg».proof.Proof.Gen.Kernel.Points
import proofs.«421845_j87866440941679_1_alg».proof.Proof.Gen.Kernel.Frame
import proofs.«421845_j87866440941679_1_alg».proof.Proof.Gen.KernelIdeal
import proofs.«421845_j87866440941679_1_alg».proof.Proof.Gen.KernelIdeal.Skeleton
import proofs.«421845_j87866440941679_1_alg».proof.Proof.Gen.KernelIdeal.Launch
import proofs.«421845_j87866440941679_1_alg».proof.Proof.Gen.KernelIdeal.Points
import proofs.«421845_j87866440941679_1_alg».proof.Proof.Gen.KernelIdeal.Frame
import proofs.«421845_j87866440941679_1_alg».proof.Proof.Gen.ReferenceIdeal
import proofs.«421845_j87866440941679_1_alg».proof.Proof.Gen.Pre_finite_inputs
import proofs.«421845_j87866440941679_1_alg».proof.Proof.KernelArray
import proofs.«421845_j87866440941679_1_alg».proof.Proof.RefRead
import proofs.«421845_j87866440941679_1_alg».proof.Proof.Range
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at `Heads.logits` of the arguments: the kernel by its blocks (Proof/KernelArray.lean), the reference
    entry by entry (Proof/RefRead.lean); the head of each row is read off the precondition (Proof/Range.lean). -/
theorem algebraic : Cert.algebraic_KernelIdeal_ReferenceIdeal := by
  intro m ρ m' ρ' hpre hagree
  have hh : ∀ c, Cert.KernelIdeal.Heads.HeadsOK m c := fun c r =>
    Cert.Pre_finite_inputs.Heads.heads_of_pre _ _ _ _ (hpre c) r
  refine ⟨fun c => Cert.KernelIdeal.Heads.result m c, Cert.KernelIdeal.Heads.run m ρ hh, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v6_eq, (hagree c).1, (hagree c).2.1, (hagree c).2.2.1, (hagree c).2.2.2]
  funext i
  obtain ⟨r, q, rfl⟩ : ∃ (r : Fin 262144) (q : Fin 10), i = ix2 r q := ⟨i 0, i 1, eq_ix2 i⟩
  obtain ⟨s, hs⟩ := hh c r
  rw [Cert.ReferenceIdeal.Heads.ref_at _ _ _ _ r q s hs]
  exact (Cert.Heads.entry_of_head _ _ _ _ r q s hs).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
